-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S1048576 : Shape := ⟨1, ![1048576]⟩
abbrev S1200x128 : Shape := ⟨2, ![1200, 128]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S1200x128 : S_.BroadcastsInDim S1200x128 (![] : Fin 0 → Fin S1200x128.rank)
  reducesTo_S1200x128_S_d0_1 : S1200x128.ReducesTo [0, 1] S_

variable [Facts]

def fn {F : FTy → Type} [FloatOps F] (main_arg0 : IVec S16384 32) (main_arg1 : IVec S1048576 32) (main_arg2 : IVec S1048576 32) (main_arg3 : FVec F S1048576 .f32) (main_arg4 : FVec F S1200x128 .f32) : IVec S_ 1 :=
  let main_v0 : FVec F S1048576 .f32 := Host.absf main_arg3
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1200x128 .f32 := Host.absf main_arg4
  let main_cst_0 : FVec F S_ .f32 := constant S_ .f32 0x7F800000#32
  let main_v5 : FVec F S1200x128 .f32 := broadcastInDim S1200x128 ![] bcast_S_S1200x128 main_cst_0
  let main_v6 : IVec S1200x128 1 := cmpf .olt main_v4 main_v5
  let main_c_1 : IVec S_ 1 := constantI S_ 1 1#1
  let main_v7 : IVec S_ 1 := (fun x v => Host.reduce IntOp.andi x v reducesTo_S1200x128_S_d0_1 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg2 main_v9
  let main_c_3 : IVec S_ 32 := constantI S_ 32 1200#32
  let main_v11 : IVec S1048576 32 := broadcastInDim S1048576 ![] bcast_S_S1048576 main_c_3
  let main_v12 : IVec S1048576 1 := cmpi .slt main_arg2 main_v11
  let main_v13 : IVec S1048576 1 := andi main_v10 main_v12
  let main_c_4 : IVec S_ 1 := constantI S_ 1 1#1
  let main_v14 : IVec S_ 1 := (fun x v => Host.reduce IntOp.andi x v reducesTo_S1048576_S_d0 h_S_) main_v13 main_c_4
  let main_v15 : IVec S_ 1 := andi main_v8 main_v14
  main_v15
-- ==== Kernel.lean ====
abbrev S16384 : Shape := ⟨1, ![16384]⟩
abbrev S1048576 : Shape := ⟨1, ![1048576]⟩
abbrev S1200x128 : Shape := ⟨2, ![1200, 128]⟩
abbrev S1048576x1 : Shape := ⟨2, ![1048576, 1]⟩
abbrev S_ : Shape := ⟨0, ![]⟩
abbrev S1048576x128 : Shape := ⟨2, ![1048576, 128]⟩
abbrev S16384x128 : Shape := ⟨2, ![16384, 128]⟩
abbrev S16384x1 : Shape := ⟨2, ![16384, 1]⟩
abbrev S4096x128 : Shape := ⟨2, ![4096, 128]⟩

abbrev nBuf : Space → Nat
  | .hbm => 38
  | .vmem => 6
  | .smem => 0
  | _ => 0

abbrev bufTy : (tb : Table) → Fin (tcTables nBuf tb) → BufTy
  | .hbm, ⟨0, _⟩ => ⟨S16384, .i32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S1200x128, .f32⟩
  | .hbm, ⟨5, _⟩ => ⟨S1048576x1, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576x128, .f32⟩
  | .hbm, ⟨15, _⟩ => ⟨S1048576x128, .f32⟩
  | .hbm, ⟨16, _⟩ => ⟨S1048576x128, .f32⟩
  | .hbm, ⟨17, _⟩ => ⟨S_, .f32⟩
  | .hbm, ⟨18, _⟩ => ⟨S16384x128, .f32⟩
  | .hbm, ⟨19, _⟩ => ⟨S_, .i32⟩
  | .hbm, ⟨20, _⟩ => ⟨S1048576, .i32⟩
  | .hbm, ⟨21, _⟩ => ⟨S1048576, .i1⟩
  | .hbm, ⟨22, _⟩ => ⟨S_, .i32⟩
  | .hbm, ⟨23, _⟩ => ⟨S1048576, .i32⟩
  | .hbm, ⟨24, _⟩ => ⟨S1048576, .i32⟩
  | .hbm, ⟨25, _⟩ => ⟨S1048576, .i32⟩
  | .hbm, ⟨26, _⟩ => ⟨S1048576x1, .i32⟩
  | .hbm, ⟨27, _⟩ => ⟨S16384x128, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x128, .f32⟩
  | .hbm, ⟨37, _⟩ => ⟨S16384x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x128_0_1 : S1048576x1.BroadcastsInDim S1048576x128 (![0, 1] : Fin 2 → Fin S1048576x128.rank)
  bcast_S_S16384x128 : S_.BroadcastsInDim S16384x128 (![] : Fin 0 → Fin S16384x128.rank)
  bcast_S_S16384 : S_.BroadcastsInDim S16384 (![] : Fin 0 → Fin S16384.rank)
  bcast_S16384_S16384x1_0 : S16384.BroadcastsInDim S16384x1 (![0] : Fin 1 → Fin S16384x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  gather_S1200x128_S1048576x1_S1048576x128_1_0_n_n_0_1_1128_wf : GatherDims.WF S1200x128 S1048576x1 S1048576x128 [1] [0] [] [0] [] 1 ![1, 128]
  scatter_S16384x128_S1048576x1_S1048576x128_1_0_0_1_wf : ScatterDims.WF S16384x128 S1048576x1 S1048576x128 [1] [0] [0] 1
  gather_S1200x128_S16384x1_S16384x128_1_0_n_n_0_1_1128_wf : GatherDims.WF S1200x128 S16384x1 S16384x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S16384x128.size a
  hwx0_2 : ∀ i : grid0.Coords, EltTy.bits .f32 = 32 ∨ (Rect.block (s := S16384x128) S4096x128.size (cc0_transform_2 i) (hinb0_2 i)).WholeWords (EltTy.packing .f32)

variable [Facts₀]

def gather_S1200x128_S1048576x1_S1048576x128_1_0_n_n_0_1_1128 : GatherDims S1200x128 S1048576x1 S1048576x128 where
  offsetDims := [1]
  collapsedSliceDims := [0]
  operandBatchingDims := []
  startIndicesBatchingDims := []
  startIndexMap := [0]
  indexVectorDim := 1
  sliceSizes := ![1, 128]
  wf := gather_S1200x128_S1048576x1_S1048576x128_1_0_n_n_0_1_1128_wf
def scatter_S16384x128_S1048576x1_S1048576x128_1_0_0_1 : ScatterDims S16384x128 S1048576x1 S1048576x128 where
  updateWindowDims := [1]
  insertedWindowDims := [0]
  scatterDimsToOperandDims := [0]
  indexVectorDim := 1
  wf := scatter_S16384x128_S1048576x1_S1048576x128_1_0_0_1_wf
def gather_S1200x128_S16384x1_S16384x128_1_0_n_n_0_1_1128 : GatherDims S1200x128 S16384x1 S16384x128 where
  offsetDims := [1]
  collapsedSliceDims := [0]
  operandBatchingDims := []
  startIndicesBatchingDims := []
  startIndexMap := [0]
  indexVectorDim := 1
  sliceSizes := ![1, 128]
  wf := gather_S1200x128_S16384x1_S16384x128_1_0_n_n_0_1_1128_wf

abbrev win0_0 : Pipeline.Window sig grid0 :=
  Pipeline.Window.ofSpec (Memref.whole main_v17) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S1048576 : Shape := ⟨1, ![1048576]⟩
abbrev S1200x128 : Shape := ⟨2, ![1200, 128]⟩
abbrev S_ : Shape := ⟨0, ![]⟩
abbrev S16384x1200 : Shape := ⟨2, ![16384, 1200]⟩
abbrev S1048576x1 : Shape := ⟨2, ![1048576, 1]⟩
abbrev S1048576x2 : Shape := ⟨2, ![1048576, 2]⟩
abbrev S16384x128 : Shape := ⟨2, ![16384, 128]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S1200x128, .f32⟩
  | .hbm, ⟨5, _⟩ => ⟨S_, .f32⟩
  | .hbm, ⟨6, _⟩ => ⟨S16384x1200, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S1048576x1, .i32⟩
  | .hbm, ⟨22, _⟩ => ⟨S1048576x1, .i32⟩
  | .hbm, ⟨23, _⟩ => ⟨S1048576x2, .i32⟩
  | .hbm, ⟨24, _⟩ => ⟨S16384x1200, .f32⟩
  | .hbm, ⟨25, _⟩ => ⟨S16384x128, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x128, .f32⟩
  | .hbm, ⟨35, _⟩ => ⟨S16384x128, .f32⟩
  | .hbm, ⟨36, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S16384x1200 : S_.BroadcastsInDim S16384x1200 (![] : Fin 0 → Fin S16384x1200.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S16384 : S_.BroadcastsInDim S16384 (![] : Fin 0 → Fin S16384.rank)
  bcast_S16384_S16384x1_0 : S16384.BroadcastsInDim S16384x1 (![0] : Fin 1 → Fin S16384x1.rank)
  scatter_S16384x1200_S1048576x2_S1048576_n_01_01_1_wf : ScatterDims.WF S16384x1200 S1048576x2 S1048576 [] [0, 1] [0, 1] 1
  dot_S16384x1200_S1200x128_S16384x128_1_0_0_1_n_n_wf : DotDims.WF S16384x1200 S1200x128 S16384x128 [1] [0] [0] [1] [] []
  gather_S1200x128_S16384x1_S16384x128_1_0_n_n_0_1_1128_wf : GatherDims.WF S1200x128 S16384x1 S16384x128 [1] [0] [] [0] [] 1 ![1, 128]

variable [Facts₀]

def scatter_S16384x1200_S1048576x2_S1048576_n_01_01_1 : ScatterDims S16384x1200 S1048576x2 S1048576 where
  updateWindowDims := []
  insertedWindowDims := [0, 1]
  scatterDimsToOperandDims := [0, 1]
  indexVectorDim := 1
  wf := scatter_S16384x1200_S1048576x2_S1048576_n_01_01_1_wf
def dot_S16384x1200_S1200x128_S16384x128_1_0_0_1_n_n : DotDims S16384x1200 S1200x128 S16384x128 where
  lhsContracting := [1]
  rhsContracting := [0]
  lhsNonContracting := [0]
  rhsNonContracting := [1]
  lhsBatch := []
  rhsBatch := []
  wf := dot_S16384x1200_S1200x128_S16384x128_1_0_0_1_n_n_wf
def gather_S1200x128_S16384x1_S16384x128_1_0_n_n_0_1_1128 : GatherDims S1200x128 S16384x1 S16384x128 where
  offsetDims := [1]
  collapsedSliceDims := [0]
  operandBatchingDims := []
  startIndicesBatchingDims := []
  startIndexMap := [0]
  indexVectorDim := 1
  sliceSizes := ![1, 128]
  wf := gather_S1200x128_S16384x1_S16384x128_1_0_n_n_0_1_1128_wf

class Facts : Prop extends Facts₀ where

variable [Facts]
-- ==== Proof.Glue.lean ====
/-
  The two arrays the kernel's host code hands to the Pallas region, named as functions of the arguments.

  `pathSum`: the path-by-path weighted sum. Every path `p` contributes the row `path_prob p · rel_emb[path_rel p]`
  (the relation index python-style: a negative index has 1200 added; the gather clamps what is still out of range),
  added onto row `path_batch p` of a zero array (a negative batch index has 16384 added; a row index still out of
  range drops its row).

  `target`: the rows `rel_emb[r]` (the same python-style index, clamped by the gather).

  The region then computes `|pathSum − target|` entry by entry.
-/
import proofs.«422552_j20873541059102_2_alg».proof.KernelIdeal
import proofs.«422552_j20873541059102_2_alg».proof.Proof.Gen.KernelIdeal

noncomputable section

namespace Cert.KernelIdeal.Glue

open Cert.KernelIdeal Cert.KernelIdeal.Gen Idealize.ShloMosaic

variable {F : FTy → Type} [FloatOps F]

/-- A relation index python-style over the 1,048,576 paths: 1200 is added to a negative one. -/
def wrapRel (x2 : (⟨S1048576, .i32⟩ : BufTy).Contents (Elt F)) : (⟨S1048576, .i32⟩ : BufTy).Contents (Elt F) :=
  select (cmpi .slt x2 (broadcastInDim S1048576 ![] bcast_S_S1048576 (constantI S_ 32 0#32)))
    (addi x2 (broadcastInDim S1048576 ![] bcast_S_S1048576 (constantI S_ 32 1200#32))) x2

/-- A batch index python-style over the paths: 16384 is added to a negative one. -/
def wrapBatch (x1 : (⟨S1048576, .i32⟩ : BufTy).Contents (Elt F)) : (⟨S1048576, .i32⟩ : BufTy).Contents (Elt F) :=
  select (cmpi .slt x1 (broadcastInDim S1048576 ![] bcast_S_S1048576 (constantI S_ 32 0#32)))
    (addi x1 (broadcastInDim S1048576 ![] bcast_S_S1048576 (constantI S_ 32 16384#32))) x1

/-- The target relation index python-style over the 16,384 examples: 1200 is added to a negative one. -/
def wrapTarget (x0 : (⟨S16384, .i32⟩ : BufTy).Contents (Elt F)) : (⟨S16384, .i32⟩ : BufTy).Contents (Elt F) :=
  select (cmpi .slt x0 (broadcastInDim S16384 ![] bcast_S_S16384 (constantI S_ 32 0#32)))
    (addi x0 (broadcastInDim S16384 ![] bcast_S_S16384 (constantI S_ 32 1200#32))) x0

/-- Each path's contribution row: its probability times the embedding row of its relation. -/
def contrib (x2 : (⟨S1048576, .i32⟩ : BufTy).Contents (Elt F)) (x3 : (⟨S1048576, .f32⟩ : BufTy).Contents (Elt F))
    (x4 : (⟨S1200x128, .f32⟩ : BufTy).Contents (Elt F)) : (⟨S1048576x128, .f32⟩ : BufTy).Contents (Elt F) :=
  mulf (broadcastInDim S1048576x128 ![0, 1] bcast_S1048576x1_S1048576x128_0_1 (broadcastInDim S1048576x1 ![0] bcast_S1048576_S1048576x1_0 x3))
    (Host.gather gather_S1200x128_S1048576x1_S1048576x128_1_0_n_n_0_1_1128 x4
      (broadcastInDim S1048576x1 ![0] bcast_S1048576_S1048576x1_0 (wrapRel (F := F) x2)))

/-- The path-by-path sum: every path's contribution row added onto the row its batch index names, from zero. -/
def pathSum (x1 x2 : (⟨S1048576, .i32⟩ : BufTy).Contents (Elt F)) (x3 : (⟨S1048576, .f32⟩ : BufTy).Contents (Elt F))
    (x4 : (⟨S1200x128, .f32⟩ : BufTy).Contents (Elt F)) : (⟨S16384x128, .f32⟩ : BufTy).Contents (Elt F) :=
  Host.scatterAdd scatter_S16384x128_S1048576x1_S1048576x128_1_0_0_1
    (broadcastInDim S16384x128 ![] bcast_S_S16384x128 (constant S_ .f32 0x00000000#32))
    (broadcastInDim S1048576x1 ![0] bcast_S1048576_S1048576x1_0 (wrapBatch (F := F) x1))
    (contrib x2 x3 x4)

/-- The target rows: the embedding row of each example's relation. -/
def target (x0 : (⟨S16384, .i32⟩ : BufTy).Contents (Elt F)) (x4 : (⟨S1200x128, .f32⟩ : BufTy).Contents (Elt F)) :
    (⟨S16384x128, .f32⟩ : BufTy).Contents (Elt F) :=
  Host.gather gather_S1200x128_S16384x1_S16384x128_1_0_n_n_0_1_1128 x4
    (broadcastInDim S16384x1 ![0] bcast_S16384_S16384x1_0 (wrapTarget (F := F) x0))

/-- What the region leaves: the distance `|pathSum − target|`, entry by entry. -/
def absDiff (P R : (⟨S16384x128, .f32⟩ : BufTy).Contents (Elt F)) : (⟨S16384x128, .f32⟩ : BufTy).Contents (Elt F) :=
  fun i => FloatOps.absf (FloatOps.subf (P i) (R i))

end Cert.KernelIdeal.Glue

end
-- ==== Proof.KernelArray.lean ====
/-
  The kernel's result array, whole.

  The Pallas region reads two arrays the host code has prepared, the path-by-path sum and the target rows, in four
  blocks of 4096 rows, and stores `|a − b|` of each pair of blocks. Block `t` of every window is rows
  `4096·t … 4096·t + 4095`, all 128 columns, so each input block read where the output block's entry sits gives the
  arrays' entries at one and the same array index; the four output blocks tile the 16384 rows. Hence the result array
  ends at `|pathSum − target|` entry by entry.
-/
import proofs.«422552_j20873541059102_2_alg».proof.Proof.Gen.KernelIdeal.Value
import proofs.«422552_j20873541059102_2_alg».proof.Proof.Glue
import Idealize.ShloMosaic.Lib.Pipeline.Value
import Idealize.ShloMosaic.Lib.StableHlo.Run

noncomputable section

namespace Cert.KernelIdeal.Array

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The offsets of an access to a whole block: zero on both axes. -/
theorem zeroOffsets : (![0, 0] : Fin 2 → Nat) = fun _ => 0 := funext fun a => by fin_cases a <;> rfl

/-- The region's first operand, as the region finds it, is the path-by-path sum of the argument arrays. -/
theorem entry_pathSum (c : Dev nD) :
    (V m c main_v17 : S16384x128.Idx → Elt F .f32)
      = Glue.pathSum (m ((c : Thread nD τ).loc main_arg1)) (m ((c : Thread nD τ).loc main_arg2))
          (m ((c : Thread nD τ).loc main_arg3)) (m ((c : Thread nD τ).loc main_arg4)) := by
  unfold Glue.pathSum Glue.contrib Glue.wrapBatch Glue.wrapRel
  show StableHlo.after hostOps0 (fun b => m (c, b)) (Proc.devRef .tc main_v17) = _
  unfold Gen.hostOps0
  after_results_simp

/-- The region's second operand, as the region finds it, is the target rows of the argument arrays. -/
theorem entry_target (c : Dev nD) :
    (V m c main_v24 : S16384x128.Idx → Elt F .f32)
      = Glue.target (m ((c : Thread nD τ).loc main_arg0)) (m ((c : Thread nD τ).loc main_arg4)) := by
  unfold Glue.target Glue.wrapTarget
  show StableHlo.after hostOps0 (fun b => m (c, b)) (Proc.devRef .tc main_v24) = _
  unfold Gen.hostOps0
  after_results_simp

/-- The distance array of the arguments: `|pathSum − target|`. -/
abbrev result (c : Dev nD) : S16384x128.Idx → Elt F .f32 :=
  Glue.absDiff
    (Glue.pathSum (m ((c : Thread nD τ).loc main_arg1)) (m ((c : Thread nD τ).loc main_arg2))
      (m ((c : Thread nD τ).loc main_arg3)) (m ((c : Thread nD τ).loc main_arg4)))
    (Glue.target (m ((c : Thread nD τ).loc main_arg0)) (m ((c : Thread nD τ).loc main_arg4)))

/-! ## Each point's block, and the blocks together

Every window cuts its array into the same blocks: point `t` has rows `4096·t … 4096·t + 4095` and all 128 columns of
each of the three arrays. So an entry of the two input blocks at a block position is the two arrays' entry at the
array index where the output block's entry of that position sits. -/

/-- The three block-index maps, compared point by point over the grid: both inputs' block indices are the output's on
    either axis; the output's row-block index is at most 3 and its column-block index is 0. -/
theorem blockIndex_agree : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 3
    ∧ win0_2.index t (1 : Fin 2) = 0 :=
  (by decide +kernel : ∀ t : Fin grid0.N, _)

/-- Each of the four row blocks is the output block of some grid point. -/
theorem rowBlock_of_point : ∀ q : Fin 4, ∃ t : Fin cfg0.N, win0_2.index t = ![q.val, 0] :=
  (by decide +kernel : ∀ q : Fin 4, ∃ t : Fin grid0.N, win0_2.index t = ![q.val, 0])

/-- What point `t` writes back is block `t` of `|a − b|`, `a` and `b` the two arrays the region was handed: the body
    subtracts its two whole input blocks and takes absolute values, and both input blocks sit in their arrays where the
    output block sits in its own. -/
theorem flushed_absDiff (c : Dev nD) (t : Fin cfg0.N) :
    (dats m 0 c).flushed 2 t
      = ((cfg0.win 2).blk t).view.read (Elt F) (Glue.absDiff (V m c main_v17) (V m c main_v24)) := by
  rw [Value.flushed2]
  unfold out0_2
  rw [View.canon_unit_zero zeroOffsets]
  simp only [View.ld_unit_zero (S := S4096x128) zeroOffsets]
  rw [Value.lay2_0_eq, shapeCast_self, shapeCast_self]
  obtain ⟨e0, e1, e2, e3, -, -⟩ := blockIndex_agree t
  funext j
  show FloatOps.absf (FloatOps.subf (V m c main_v17 (((cfg0.win 0).blk t).view.emb j)) (V m c main_v24 (((cfg0.win 1).blk t).view.emb j)))
    = FloatOps.absf (FloatOps.subf (V m c main_v17 (((cfg0.win 2).blk t).view.emb j)) (V m c main_v24 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 128 + 1 * (j 1).val = win0_2.index t (1 : Fin 2) * 128 + 1 * (j 1).val; omega
  rw [h0, h1]

/-- An index of the result array lies in point `t`'s block exactly when, on each axis, its coordinate lies in the
    block's range of that axis. -/
theorem mem_block_iff (t : Fin cfg0.N) (i : S16384x128.Idx) :
    i ∈ ((cfg0.win 2).blk t).view.set
      ↔ ∀ a : Fin 2, win0_2.index t a * S4096x128.size a ≤ (i a).val
          ∧ (i a).val < win0_2.index t a * S4096x128.size a + S4096x128.size a := by
  show i ∈ ((View.whole main_v25).slice (win0_2.rect t)).set ↔ _
  rw [View.set_slice_whole, Rect.mem_set_unit]
  exact Iff.rfl

/-- The four blocks tile the array: the index with row `r` lies in the block of the point whose row block is `r / 4096`. -/
theorem blocks_cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  obtain ⟨t, ht⟩ := rowBlock_of_point ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block_iff]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- So the result array ends at `|a − b|` of the two arrays the region was handed, whole. -/
theorem final_absDiff (c : Dev nD) :
    (dats m 0 c).arrAt 2 cfg0.N = Glue.absDiff (V m c main_v17) (V m c main_v24) :=
  (dats m 0 c).arrAt_eq_of_cover 2 (Glue.absDiff (V m c main_v17) (V m c main_v24))
    (fun t _ => flushed_absDiff m c t) blocks_cover

/-- And those two arrays are the path-by-path sum and the target rows of the arguments. -/
theorem absDiff_entry (c : Dev nD) :
    Glue.absDiff (V m c main_v17) (V m c main_v24) = result m c := by
  show Glue.absDiff (V m c main_v17 : S16384x128.Idx → Elt F .f32) (V m c main_v24 : S16384x128.Idx → Elt F .f32) = _
  rw [entry_pathSum m c, entry_target m c]

/-- The run, read: the result array ends at the distance array of the arguments, the arguments unchanged. -/
theorem run : θ_run defs (onTc (τ := τ) (main (F := F))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((final_absDiff m c).trans (absDiff_entry m c)), (h c).2⟩)
    (Value.run_blocks m ρ)

end Cert.KernelIdeal.Array

end
-- ==== Proof.PreDecode.lean ====
/-
  What the precondition says, decoded: every path probability and every embedding entry is a real number, and every
  path's relation index lies in `[0, 1200)`.

  The printed precondition is a conjunction of three reductions by "and": `|path_prob| < +∞` over all paths,
  `|rel_emb| < +∞` over all entries, and `0 ≤ path_rel ∧ path_rel < 1200` over all paths. An extended real whose absolute
  value is below `+∞` is a real number.
-/
import proofs.«422552_j20873541059102_2_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

/-- The scalar shape has exactly one index. -/
local instance : Subsingleton S_.Idx := ⟨fun a b => funext fun d => d.elim0⟩

/-- An extended real whose absolute value `max x (-x)` compares below the pattern of `+∞` is a real number: `x < ⊤` rules
    out `⊤`, and `-x < ⊤` rules out `⊥`. -/
theorem real_of_abs_lt_inf (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have hlt : max x (-x) < (⊤ : EReal) := by
    simpa only [Ideal.cmp, StableHlo.Predicate.ofBool_eq_one_iff, decide_eq_true_eq] using h
  obtain ⟨h1, h2⟩ := max_lt_iff.1 hlt
  induction x using EReal.rec with
  | bot => exact absurd h2 (by simp)
  | coe r => exact ⟨r, rfl⟩
  | top => exact absurd h1 (lt_irrefl _)

/-- A 32-bit word that compares, signed, at or above the zero word is non-negative as a signed integer. -/
theorem nonneg_of_sge (x : BitVec 32) (h : IntOp.cmpi .sge x 0#32 = 1#1) : 0 ≤ x.toInt := by
  unfold IntOp.cmpi at h
  have hb := (StableHlo.Predicate.ofBool_eq_one_iff _).1 h
  simpa [BitVec.sle] using hb

/-- A 32-bit word that compares, signed, below the word 1200 is below 1200 as a signed integer. -/
theorem lt_of_slt (x : BitVec 32) (h : IntOp.cmpi .slt x 1200#32 = 1#1) : x.toInt < 1200 := by
  unfold IntOp.cmpi at h
  have hb := (StableHlo.Predicate.ofBool_eq_one_iff _).1 h
  have hc : (1200#32 : BitVec 32).toInt = 1200 := by decide
  simpa [BitVec.slt, hc] using hb

/-- The precondition, all ones, gives: the probabilities are reals, the embedding entries are reals, and every relation
    index, read signed, is in `[0, 1200)`. -/
theorem decode (a0 : IVec S16384 32) (a1 a2 : IVec S1048576 32) (a3 : FVec Ideal S1048576 .f32) (a4 : FVec Ideal S1200x128 .f32)
    (h : Cert.Pre_finite_inputs.fn (F := Ideal) a0 a1 a2 a3 a4 = fun _ => 1#1) :
    (∀ i, ∃ r : ℝ, a3 i = (r : EReal)) ∧ (∀ i, ∃ r : ℝ, a4 i = (r : EReal))
      ∧ (∀ i, 0 ≤ (a2 i).toInt ∧ (a2 i).toInt < 1200) := by
  -- the precondition at its one index: a conjunction of three reductions by "and"
  have h0 := congrFun h ValueIdx.ix0
  dsimp only [Cert.Pre_finite_inputs.fn] at h0
  obtain ⟨h12, h3⟩ := IntOp.andi_eq_one.1 (show IntOp.andi _ _ = 1#1 from h0)
  obtain ⟨h1, h2⟩ := IntOp.andi_eq_one.1 (show IntOp.andi _ _ = 1#1 from h12)
  refine ⟨fun i => ?_, fun i => ?_, fun i => ?_⟩
  -- each reduction that is 1 had a 1 at every element; the element's comparison is then read back
  · exact real_of_abs_lt_inf (a3 i) (Host.reduce_andi_all _ _ _ _ ix0 h1 i)
  · exact real_of_abs_lt_inf (a4 i) (Host.reduce_andi_all _ _ _ _ ix0 h2 i)
  · have e := Host.reduce_andi_all _ _ _ _ ix0 h3 i
    obtain ⟨e1, e2⟩ := IntOp.andi_eq_one.1 (show IntOp.andi _ _ = 1#1 from e)
    exact ⟨nonneg_of_sge (a2 i) e1, lt_of_slt (a2 i) e2⟩

end Cert.PreDecode

end
-- ==== Proof.HostIndex.lean ====
/-
  Host scatters and gathers read at an index.

  Three shapes of jax's integer-array indexing, at the exact (extended-real) instance:

    * a ROW scatter-add `P.at[idx].add(U)`: row `p` of the updates `U : [N, D]` is added onto row `idx p` of `P : [B, D]`;
      an index outside `[0, B)` drops its row. Entry `(b, e)` ends at its old value plus the sum, over the paths `p`
      whose index is `b`, of `U (p, e)`.
    * a CELL scatter-add `W.at[i0, i1].add(u)`: update `p` of `u : [N]` is added onto cell `(i0 p, i1 p)` of `W : [B, K]`;
      a pair with either coordinate out of range is dropped. Cell `(b, k)` ends at its old value plus the sum, over the
      paths whose pair is `(b, k)`, of `u p`.
    * a ROW gather `X[idx]`: row `p` of the result `[N, D]` is row `idx p` of `X : [K, D]`, the index read signed and
      clamped into `[0, K − 1]`.

  The index of path `p` is read as a signed integer; the sums run over the paths `p : Fin N`.
-/
import Idealize.ShloMosaic.Lib.ValueIdx
import Idealize.ShloMosaic.PureOps.Ideal

noncomputable section

namespace Cert.HostIndex

open Idealize.ShloMosaic Idealize.ShloMosaic.ValueIdx

/-- The dimension numbers of a row scatter: updates `[N, D]`, one row index per update row (`[N, 1]`), operand `[B, D]`. -/
abbrev rowScatter (B D N : Nat) (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-- The dimension numbers of a cell scatter: updates `[N]`, one index pair per update (`[N, 2]`), operand `[B, K]`. -/
abbrev cellScatter (B K N : Nat) (wf : ScatterDims.WF ⟨2, ![B, K]⟩ ⟨2, ![N, 2]⟩ ⟨1, ![N]⟩ [] [0, 1] [0, 1] 1) :
    ScatterDims ⟨2, ![B, K]⟩ ⟨2, ![N, 2]⟩ ⟨1, ![N]⟩ where
  updateWindowDims := []
  insertedWindowDims := [0, 1]
  scatterDimsToOperandDims := [0, 1]
  indexVectorDim := 1
  wf := wf

/-- The dimension numbers of a row gather: operand `[K, D]`, one row index per result row (`[N, 1]`), result `[N, D]`. -/
abbrev rowGather (K D N : Nat) (wf : GatherDims.WF ⟨2, ![K, D]⟩ ⟨2, ![N, 1]⟩ ⟨2, ![N, D]⟩ [1] [0] [] [0] [] 1 ![1, D]) :
    GatherDims ⟨2, ![K, D]⟩ ⟨2, ![N, 1]⟩ ⟨2, ![N, D]⟩ where
  offsetDims := [1]
  collapsedSliceDims := [0]
  operandBatchingDims := []
  startIndicesBatchingDims := []
  startIndexMap := [0]
  indexVectorDim := 1
  sliceSizes := ![1, D]
  wf := wf

/-! ## Where an update lands -/

/-- An update lands on operand index `i` exactly when, on every axis, its signed start plus its window coordinate is
    `i`'s coordinate: inside the operand the landing index is that sum on every axis, and outside it there is none. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have h2 := congrArg Fin.val (congrFun (Option.some.inj he) a)
      simp only at h2
      have := h a
      omega
    · intro hall
      congr 1
      funext a
      refine Fin.ext ?_
      have := hall a
      simp only
      omega
  · rename_i h
    constructor
    · intro he; cases he
    · intro hall
      exfalso; apply h
      intro a
      have h1 := hall a
      have h2 := (i a).isLt
      constructor <;> omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter: the start is the row index on axis 0 and nothing on axis 1; the window is the column on axis 1 -/

section Row
variable {B D N w : Nat} (wf : ScatterDims.WF ⟨2, ![B, D]⟩ ⟨2, ![N, 1]⟩ ⟨2, ![N, D]⟩ [1] [0] [0] 1)

/-- On the row axis the start of update `(p, e')` is path `p`'s index, read signed. -/
theorem rowScatter_start0 (idx : IVec ⟨2, ![N, 1]⟩ w) (p : Fin N) (e' : Fin D) :
    (rowScatter B D N wf).start (ix2 p e') idx (0 : Fin 2) = (idx (ix2 p (0 : Fin 1))).toInt := by
  unfold ScatterDims.start
  rw [dif_pos (show (0 : Fin 2) ∈ (rowScatter B D N wf).scatterDimsToOperandDims from List.mem_singleton.mpr rfl)]
  have hsi : (rowScatter B D N wf).siIdx (ix2 p e') ⟨List.idxOf (0 : Fin 2) (rowScatter B D N wf).scatterDimsToOperandDims,
      List.idxOf_lt_length_iff.2 (List.mem_singleton.mpr rfl)⟩ = ix2 p (0 : Fin 1) := by
    funext c; refine Fin.ext ?_
    match c with
    | ⟨0, _⟩ => rfl
    | ⟨1, _⟩ => rfl
  rw [hsi]

/-- The column axis is not named by the index map: its start is zero. -/
theorem rowScatter_start1 (idx : IVec ⟨2, ![N, 1]⟩ w) (p : Fin N) (e' : Fin D) :
    (rowScatter B D N wf).start (ix2 p e') idx (1 : Fin 2) = 0 := by
  unfold ScatterDims.start
  rw [dif_neg (show (1 : Fin 2) ∉ ([0] : List (Fin 2)) by decide)]

/-- The row axis is inserted: its window coordinate is zero. -/
theorem rowScatter_window0 (p : Fin N) (e' : Fin D) :
    (rowScatter B D N wf).window (ix2 p e') (0 : Fin 2) = 0 := by
  unfold ScatterDims.window
  rw [dif_neg (show (0 : Fin 2) ∉ (rowScatter B D N wf).sKept by
    simp [ScatterDims.sKept, Shape.kept, List.mem_filter, List.mem_finRange])]

/-- The column axis is kept: its window coordinate is the update's column. -/
theorem rowScatter_window1 (p : Fin N) (e' : Fin D) :
    (rowScatter B D N wf).window (ix2 p e') (1 : Fin 2) = e'.val := by
  unfold ScatterDims.window
  rw [dif_pos (show (1 : Fin 2) ∈ (rowScatter B D N wf).sKept by
    simp [ScatterDims.sKept, Shape.kept, List.mem_filter, List.mem_finRange])]
  rfl

/-- Update `(p, e')` lands on entry `(b, e)` exactly when path `p`'s index is `b` and the columns agree. -/
theorem rowScatter_lands (idx : IVec ⟨2, ![N, 1]⟩ w) (p : Fin N) (e' e : Fin D) (b : Fin B) :
    (rowScatter B D N wf).resultIdx? (ix2 p e') idx = some (ix2 b e)
      ↔ (idx (ix2 p (0 : Fin 1))).toInt = (b.val : Int) ∧ e' = e := by
  rw [resultIdx?_eq_some_iff]
  constructor
  · intro h
    have h0 : (rowScatter B D N wf).start (ix2 p e') idx (0 : Fin 2)
        + (((rowScatter B D N wf).window (ix2 p e') (0 : Fin 2) : Nat) : Int) = (b.val : Int) := h (0 : Fin 2)
    have h1 : (rowScatter B D N wf).start (ix2 p e') idx (1 : Fin 2)
        + (((rowScatter B D N wf).window (ix2 p e') (1 : Fin 2) : Nat) : Int) = (e.val : Int) := h (1 : Fin 2)
    rw [rowScatter_start0 wf, rowScatter_window0 wf] at h0
    rw [rowScatter_start1 wf, rowScatter_window1 wf] at h1
    exact ⟨by omega, Fin.ext (by omega)⟩
  · rintro ⟨h0, rfl⟩ a
    match a with
    | ⟨0, _⟩ =>
      show (rowScatter B D N wf).start (ix2 p e') idx (0 : Fin 2)
        + (((rowScatter B D N wf).window (ix2 p e') (0 : Fin 2) : Nat) : Int) = (b.val : Int)
      rw [rowScatter_start0 wf, rowScatter_window0 wf]; omega
    | ⟨1, _⟩ =>
      show (rowScatter B D N wf).start (ix2 p e') idx (1 : Fin 2)
        + (((rowScatter B D N wf).window (ix2 p e') (1 : Fin 2) : Nat) : Int) = (e'.val : Int)
      rw [rowScatter_start1 wf, rowScatter_window1 wf]; omega

end Row

/-! ## The cell scatter: both axes are inserted, and the start on axis `a` is component `a` of the path's index pair -/

section Cell
variable {B K N w : Nat} (wf : ScatterDims.WF ⟨2, ![B, K]⟩ ⟨2, ![N, 2]⟩ ⟨1, ![N]⟩ [] [0, 1] [0, 1] 1)

/-- On axis 0 the start of update `p` is the first component of path `p`'s index pair, read signed. -/
theorem cellScatter_start0 (idx : IVec ⟨2, ![N, 2]⟩ w) (p : Fin N) :
    (cellScatter B K N wf).start (ix1 p) idx (0 : Fin 2) = (idx (ix2 p (0 : Fin 2))).toInt := by
  unfold ScatterDims.start
  have hm : (0 : Fin 2) ∈ (cellScatter B K N wf).scatterDimsToOperandDims :=
    show (0 : Fin 2) ∈ ([0, 1] : List (Fin 2)) by decide
  rw [dif_pos hm]
  have hsi : (cellScatter B K N wf).siIdx (ix1 p) ⟨List.idxOf (0 : Fin 2) (cellScatter B K N wf).scatterDimsToOperandDims,
      List.idxOf_lt_length_iff.2 hm⟩ = ix2 p (0 : Fin 2) := by
    funext c; refine Fin.ext ?_
    match c with
    | ⟨0, _⟩ => rfl
    | ⟨1, _⟩ => rfl
  rw [hsi]

/-- On axis 1 the start of update `p` is the second component of path `p`'s index pair, read signed. -/
theorem cellScatter_start1 (idx : IVec ⟨2, ![N, 2]⟩ w) (p : Fin N) :
    (cellScatter B K N wf).start (ix1 p) idx (1 : Fin 2) = (idx (ix2 p (1 : Fin 2))).toInt := by
  unfold ScatterDims.start
  have hm : (1 : Fin 2) ∈ (cellScatter B K N wf).scatterDimsToOperandDims :=
    show (1 : Fin 2) ∈ ([0, 1] : List (Fin 2)) by decide
  rw [dif_pos hm]
  have hsi : (cellScatter B K N wf).siIdx (ix1 p) ⟨List.idxOf (1 : Fin 2) (cellScatter B K N wf).scatterDimsToOperandDims,
      List.idxOf_lt_length_iff.2 hm⟩ = ix2 p (1 : Fin 2) := by
    funext c; refine Fin.ext ?_
    match c with
    | ⟨0, _⟩ => rfl
    | ⟨1, _⟩ => rfl
  rw [hsi]

/-- No operand axis is kept: every window coordinate is zero. -/
theorem cellScatter_window (p : Fin N) (a : Fin 2) :
    (cellScatter B K N wf).window (ix1 p) a = 0 := by
  unfold ScatterDims.window
  rw [dif_neg (show a ∉ (cellScatter B K N wf).sKept by
    simp [ScatterDims.sKept, Shape.kept, List.mem_filter, List.mem_finRange]; omega)]

/-- Update `p` lands on cell `(b, k)` exactly when path `p`'s index pair is `(b, k)`. -/
theorem cellScatter_lands (idx : IVec ⟨2, ![N, 2]⟩ w) (p : Fin N) (b : Fin B) (k : Fin K) :
    (cellScatter B K N wf).resultIdx? (ix1 p) idx = some (ix2 b k)
      ↔ (idx (ix2 p (0 : Fin 2))).toInt = (b.val : Int) ∧ (idx (ix2 p (1 : Fin 2))).toInt = (k.val : Int) := by
  rw [resultIdx?_eq_some_iff]
  constructor
  · intro h
    have h0 : (cellScatter B K N wf).start (ix1 p) idx (0 : Fin 2)
        + (((cellScatter B K N wf).window (ix1 p) (0 : Fin 2) : Nat) : Int) = (b.val : Int) := h (0 : Fin 2)
    have h1 : (cellScatter B K N wf).start (ix1 p) idx (1 : Fin 2)
        + (((cellScatter B K N wf).window (ix1 p) (1 : Fin 2) : Nat) : Int) = (k.val : Int) := h (1 : Fin 2)
    rw [cellScatter_start0 wf, cellScatter_window wf] at h0
    rw [cellScatter_start1 wf, cellScatter_window wf] at h1
    exact ⟨by omega, by omega⟩
  · rintro ⟨h0, h1⟩ a
    match a with
    | ⟨0, _⟩ =>
      show (cellScatter B K N wf).start (ix1 p) idx (0 : Fin 2)
        + (((cellScatter B K N wf).window (ix1 p) (0 : Fin 2) : Nat) : Int) = (b.val : Int)
      rw [cellScatter_start0 wf, cellScatter_window wf]; omega
    | ⟨1, _⟩ =>
      show (cellScatter B K N wf).start (ix1 p) idx (1 : Fin 2)
        + (((cellScatter B K N wf).window (ix1 p) (1 : Fin 2) : Nat) : Int) = (k.val : Int)
      rw [cellScatter_start1 wf, cellScatter_window wf]; omega

end Cell

/-! ## The three operations read at an index -/

/-- A row scatter-add at entry `(b, e)`: the old entry plus the updates' column `e` summed over the paths whose row index is `b`. -/
theorem rowScatter_apply {B D N w : Nat} (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (e : Fin D) :
    Ideal.hostScatterAdd (rowScatter B D N wf) x idx upd (ix2 b e)
      = x (ix2 b e) + ∑ p ∈ Finset.univ.filter (fun p : Fin N => (idx (ix2 p (0 : Fin 1))).toInt = (b.val : Int)), upd (ix2 p e) := by
  unfold Ideal.hostScatterAdd
  refine congrArg (x (ix2 b e) + ·) ?_
  -- the filtered sum over update indices, as a double sum over paths and columns of an indicator
  refine (Finset.sum_filter _ _).trans ?_
  refine (sum_idx2 _).trans ?_
  refine Eq.trans ?_ (Finset.sum_filter _ _).symm
  refine Finset.sum_congr rfl fun p _ => ?_
  -- for one path: the inner sum over columns keeps column `e` alone, and only when the path's index is `b`
  simp only [rowScatter_lands wf idx p _ e b]
  by_cases hb : (idx (ix2 p (0 : Fin 1))).toInt = (b.val : Int)
  · simp [hb]
  · simp [hb]

/-- A cell scatter-add at cell `(b, k)`: the old cell plus the updates summed over the paths whose index pair is `(b, k)`. -/
theorem cellScatter_apply {B K N w : Nat} (wf : ScatterDims.WF ⟨2, ![B, K]⟩ ⟨2, ![N, 2]⟩ ⟨1, ![N]⟩ [] [0, 1] [0, 1] 1)
    (x : (⟨2, ![B, K]⟩ : Shape).Idx → EReal) (idx : IVec ⟨2, ![N, 2]⟩ w) (upd : (⟨1, ![N]⟩ : Shape).Idx → EReal)
    (b : Fin B) (k : Fin K) :
    Ideal.hostScatterAdd (cellScatter B K N wf) x idx upd (ix2 b k)
      = x (ix2 b k) + ∑ p ∈ Finset.univ.filter (fun p : Fin N =>
          (idx (ix2 p (0 : Fin 2))).toInt = (b.val : Int) ∧ (idx (ix2 p (1 : Fin 2))).toInt = (k.val : Int)), upd (ix1 p) := by
  unfold Ideal.hostScatterAdd
  refine congrArg (x (ix2 b k) + ·) ?_
  -- the filtered sum over update indices, as a sum over paths of an indicator
  refine (Finset.sum_filter _ _).trans ?_
  refine (sum_idx1 _).trans ?_
  refine Eq.trans ?_ (Finset.sum_filter _ _).symm
  refine Finset.sum_congr rfl fun p _ => ?_
  exact if_congr (cellScatter_lands wf idx p b k) rfl rfl

/-- A row gather at `(p, e)`: the operand's entry `e` of the row that path `p`'s index names, read signed and clamped into `[0, K − 1]`. -/
theorem rowGather_apply {α : Type} {K D N w : Nat} (hK : 0 < K)
    (wf : GatherDims.WF ⟨2, ![K, D]⟩ ⟨2, ![N, 1]⟩ ⟨2, ![N, D]⟩ [1] [0] [] [0] [] 1 ![1, D])
    (x : (⟨2, ![K, D]⟩ : Shape).Idx → α) (idx : IVec ⟨2, ![N, 1]⟩ w) (p : Fin N) (e : Fin D) :
    Host.gather (rowGather K D N wf) x idx (ix2 p e)
      = x (ix2 (⟨min (idx (ix2 p (0 : Fin 1))).toInt.toNat (K - 1), by omega⟩ : Fin K) e) := by
  unfold Host.gather
  congr 1
  funext a
  refine Fin.ext ?_
  match a with
  | ⟨0, _⟩ =>
    show (rowGather K D N wf).start (ix2 p e) idx (0 : Fin 2) + (rowGather K D N wf).batchCoord (ix2 p e) (0 : Fin 2)
      + (rowGather K D N wf).offCoord (ix2 p e) (0 : Fin 2) = min (idx (ix2 p (0 : Fin 1))).toInt.toNat (K - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hm : (0 : Fin 2) ∈ (rowGather K D N wf).startIndexMap := List.mem_singleton.mpr rfl
    rw [dif_pos hm]
    have hsi : (rowGather K D N wf).siIdx (ix2 p e) ⟨List.idxOf (0 : Fin 2) (rowGather K D N wf).startIndexMap,
        List.idxOf_lt_length_iff.2 hm⟩ = ix2 p (0 : Fin 1) := by
      funext c; refine Fin.ext ?_
      match c with
      | ⟨0, _⟩ => rfl
      | ⟨1, _⟩ => rfl
    rw [hsi]
    rfl
  | ⟨1, _⟩ =>
    show (rowGather K D N wf).start (ix2 p e) idx (1 : Fin 2) + (rowGather K D N wf).batchCoord (ix2 p e) (1 : Fin 2)
      + (rowGather K D N wf).offCoord (ix2 p e) (1 : Fin 2) = e.val
    rw [GatherDims.batchCoord_eq_zero _ _ _ List.not_mem_nil]
    have hs : (rowGather K D N wf).start (ix2 p e) idx (1 : Fin 2) = 0 := by
      unfold GatherDims.start
      rw [dif_neg (show (1 : Fin 2) ∉ ([0] : List (Fin 2)) by decide)]
    have ho : (rowGather K D N wf).offCoord (ix2 p e) (1 : Fin 2) = e.val := by
      unfold GatherDims.offCoord
      rw [dif_pos (show (1 : Fin 2) ∈ (rowGather K D N wf).sKept by
        simp [GatherDims.sKept, Shape.kept, List.mem_filter, List.mem_finRange])]
      rfl
    rw [hs, ho]
    omega

end Cert.HostIndex

end
-- ==== Proof.BridgeKernel.lean ====
/-
  The kernel's path-by-path sum, read at one entry.

  Entry `(b, e)` of the array the host code prepares is
      `0 + ∑ over the paths p whose batch index (python-style) is b, path_prob p · rel_emb[clamp (rel p), e]`
  where `rel p` is the path's relation index python-style and the gather clamps it into `[0, 1199]`: the row
  scatter-add contributes, to row `b`, exactly the contribution rows of the paths it sends there, and a contribution
  row is the path's probability, repeated along the row, times the gathered embedding row.
-/
import proofs.«422552_j20873541059102_2_alg».proof.Proof.Glue
import proofs.«422552_j20873541059102_2_alg».proof.Proof.HostIndex
import Idealize.ShloMosaic.Lib.ValueIdx
import Idealize.ShloMosaic.Lib.Pipeline.Value
import Idealize.ShloMosaic.PureOps.Ideal.Laws

noncomputable section

namespace Cert.BridgeKernel

open Idealize.ShloMosaic Idealize.ShloMosaic.ValueIdx Cert.KernelIdeal Cert.KernelIdeal.Gen

/-- The kernel's scatter is a row scatter: 1,048,576 update rows of 128 lanes onto the 16,384 rows. -/
theorem scatter_is_rowScatter : scatter_S16384x128_S1048576x1_S1048576x128_1_0_0_1
    = Cert.HostIndex.rowScatter 16384 128 1048576 Facts₀.scatter_S16384x128_S1048576x1_S1048576x128_1_0_0_1_wf := rfl

/-- The kernel's gather over the paths is a row gather from the 1200 embedding rows. -/
theorem gather_is_rowGather : gather_S1200x128_S1048576x1_S1048576x128_1_0_n_n_0_1_1128
    = Cert.HostIndex.rowGather 1200 128 1048576 Facts₀.gather_S1200x128_S1048576x1_S1048576x128_1_0_n_n_0_1_1128_wf := rfl

/-- Over the extended reals the host's accumulating scatter is the exact sum, whatever its dimension numbers. -/
theorem scatterAdd_exact {s si u : Shape} {w : Nat} (d : ScatterDims s si u) (x : FVec Ideal s .f32) (idx : IVec si w)
    (upd : FVec Ideal u .f32) : Host.scatterAdd d x idx upd = Ideal.hostScatterAdd d x idx upd := rfl

/-- An array over the paths, laid out as a column `[N, 1]`, reads at `(p, 0)` what the array holds at `p`. -/
theorem column_apply {α : Type} (y : S1048576.Idx → α) (p : Fin 1048576) :
    broadcastInDim S1048576x1 ![0] bcast_S1048576_S1048576x1_0 y (ix2 p (0 : Fin 1)) = y (ix1 p) :=
  broadcastInDim_apply _ bcast_S1048576_S1048576x1_0 y (ix2 p (0 : Fin 1)) (ix1 p) (fun a => match a with
    | ⟨0, _⟩ => by show p.val = if (1048576 : Nat) = 1 then 0 else p.val; rw [if_neg (by decide)])

/-- A column `[N, 1]` repeated along 128 lanes reads at `(p, e)` what the column holds at `(p, 0)`. -/
theorem lanes_apply {α : Type} (z : S1048576x1.Idx → α) (p : Fin 1048576) (e : Fin 128) :
    broadcastInDim S1048576x128 ![0, 1] bcast_S1048576x1_S1048576x128_0_1 z (ix2 p e) = z (ix2 p (0 : Fin 1)) :=
  broadcastInDim_apply _ bcast_S1048576x1_S1048576x128_0_1 z (ix2 p e) (ix2 p (0 : Fin 1)) (fun a => match a with
    | ⟨0, _⟩ => by show p.val = if (1048576 : Nat) = 1 then 0 else p.val; rw [if_neg (by decide)]
    | ⟨1, _⟩ => by show (0 : Nat) = if (1 : Nat) = 1 then 0 else e.val; rw [if_pos rfl])

/-- A weighted gathered row at lane `e`, for any index array `nr` over the paths: path `p`'s weight times the embedding
    entry `e` of the row `nr p` names, read signed and clamped into `[0, 1199]`. -/
theorem weighted_row_apply (nr : IVec S1048576 32) (x3 : FVec Ideal S1048576 .f32) (x4 : FVec Ideal S1200x128 .f32)
    (p : Fin 1048576) (e : Fin 128) :
    mulf (broadcastInDim S1048576x128 ![0, 1] bcast_S1048576x1_S1048576x128_0_1 (broadcastInDim S1048576x1 ![0] bcast_S1048576_S1048576x1_0 x3))
        (Host.gather gather_S1200x128_S1048576x1_S1048576x128_1_0_n_n_0_1_1128 x4
          (broadcastInDim S1048576x1 ![0] bcast_S1048576_S1048576x1_0 nr)) (ix2 p e)
      = x3 (ix1 p) * x4 (ix2 (⟨min (nr (ix1 p)).toInt.toNat (1200 - 1), by omega⟩ : Fin 1200) e) := by
  rw [mulf_apply, lanes_apply, column_apply x3 p, gather_is_rowGather, Cert.HostIndex.rowGather_apply (by decide)]
  simp only [column_apply nr p]

/-- A path's contribution row at lane `e`: its probability times the embedding entry `e` of the row its relation index
    names (python-style, then clamped into `[0, 1199]` by the gather). -/
theorem contrib_apply (x2 : (⟨S1048576, .i32⟩ : BufTy).Contents (Elt Ideal)) (x3 : (⟨S1048576, .f32⟩ : BufTy).Contents (Elt Ideal))
    (x4 : (⟨S1200x128, .f32⟩ : BufTy).Contents (Elt Ideal)) (p : Fin 1048576) (e : Fin 128) :
    Glue.contrib (F := Ideal) x2 x3 x4 (ix2 p e)
      = x3 (ix1 p) * x4 (ix2 (⟨min (Glue.wrapRel (F := Ideal) x2 (ix1 p)).toInt.toNat (1200 - 1), by omega⟩ : Fin 1200) e) :=
  weighted_row_apply (Glue.wrapRel (F := Ideal) x2) x3 x4 p e

/-- The zero array the sums start from reads the real number zero. -/
theorem zeros_apply (i : S16384x128.Idx) :
    (broadcastInDim S16384x128 ![] bcast_S_S16384x128 (constant (F := Ideal) S_ .f32 0x00000000#32)) i = (0 : EReal) :=
  (broadcastInDim_apply _ bcast_S_S16384x128 (constant (F := Ideal) S_ .f32 0x00000000#32) i (fun a => a.elim0) (fun a => a.elim0)).trans
    Ideal.ofBits_zero_f32

/-- A row scatter-add onto the zero array at `(b, e)`, for any batch-index array `nb` and any update rows: zero plus
    the updates' lane `e` summed over the paths whose index is `b`. -/
theorem scattered_apply (nb : IVec S1048576 32) (upd : FVec Ideal S1048576x128 .f32) (b : Fin 16384) (e : Fin 128) :
    Host.scatterAdd scatter_S16384x128_S1048576x1_S1048576x128_1_0_0_1
        (broadcastInDim S16384x128 ![] bcast_S_S16384x128 (constant (F := Ideal) S_ .f32 0x00000000#32))
        (broadcastInDim S1048576x1 ![0] bcast_S1048576_S1048576x1_0 nb) upd (ix2 b e)
      = 0 + ∑ p ∈ Finset.univ.filter (fun p : Fin 1048576 => (nb (ix1 p)).toInt = (b.val : Int)), upd (ix2 p e) := by
  rw [scatterAdd_exact, scatter_is_rowScatter, Cert.HostIndex.rowScatter_apply, zeros_apply]
  simp only [column_apply nb]

/-- THE PATH-BY-PATH SUM AT `(b, e)`: zero plus, over the paths whose python-style batch index is `b`, the path's
    probability times its relation's embedding entry `e`. -/
theorem pathSum_apply (x1 x2 : (⟨S1048576, .i32⟩ : BufTy).Contents (Elt Ideal)) (x3 : (⟨S1048576, .f32⟩ : BufTy).Contents (Elt Ideal))
    (x4 : (⟨S1200x128, .f32⟩ : BufTy).Contents (Elt Ideal)) (b : Fin 16384) (e : Fin 128) :
    Glue.pathSum (F := Ideal) x1 x2 x3 x4 (ix2 b e)
      = 0 + ∑ p ∈ Finset.univ.filter (fun p : Fin 1048576 => (Glue.wrapBatch (F := Ideal) x1 (ix1 p)).toInt = (b.val : Int)),
          x3 (ix1 p) * x4 (ix2 (⟨min (Glue.wrapRel (F := Ideal) x2 (ix1 p)).toInt.toNat (1200 - 1), by omega⟩ : Fin 1200) e) := by
  refine (scattered_apply (Glue.wrapBatch (F := Ideal) x1) (Glue.contrib (F := Ideal) x2 x3 x4) b e).trans ?_
  exact congrArg (0 + ·) (Finset.sum_congr rfl fun p _ => contrib_apply x2 x3 x4 p e)

end Cert.BridgeKernel

end
-- ==== Proof.BridgeRef.lean ====
/-
  The reference's contracted histogram, read at one entry.

  The reference first accumulates the histogram: cell `(b, k)` is
      `0 + ∑ over the paths p whose batch index (python-style) is b and whose relation index (python-style) is k, path_prob p`
  (the two index arrays are laid side by side as pairs; a pair with a coordinate out of range is dropped), and then
  contracts it with the embeddings: entry `(b, e)` of the product is `∑ over the relations k, cell (b, k) · rel_emb[k, e]`.
-/
import proofs.«422552_j20873541059102_2_alg».proof.Proof.HostIndex
import proofs.«422552_j20873541059102_2_alg».proof.Proof.Gen.ReferenceIdeal.Read
import Idealize.ShloMosaic.Lib.ValueIdx
import Idealize.ShloMosaic.Lib.Pipeline.Value
import Idealize.ShloMosaic.PureOps.Ideal.Laws

noncomputable section

namespace Cert.BridgeRef

open Idealize.ShloMosaic Idealize.ShloMosaic.ValueIdx Cert.ReferenceIdeal Cert.ReferenceIdeal.Gen Cert.ReferenceIdeal.Read

/-- The reference's scatter is a cell scatter: 1,048,576 scalar updates onto the 16,384 × 1,200 histogram. -/
theorem scatter_is_cellScatter : scatter_S16384x1200_S1048576x2_S1048576_n_01_01_1
    = Cert.HostIndex.cellScatter 16384 1200 1048576 Facts₀.scatter_S16384x1200_S1048576x2_S1048576_n_01_01_1_wf := rfl

/-- Over the extended reals the host's accumulating scatter is the exact sum, whatever its dimension numbers. -/
theorem scatterAdd_exact {s si u : Shape} {w : Nat} (d : ScatterDims s si u) (x : FVec Ideal s .f32) (idx : IVec si w)
    (upd : FVec Ideal u .f32) : Host.scatterAdd d x idx upd = Ideal.hostScatterAdd d x idx upd := rfl

/-- The zero histogram the accumulation starts from reads the real number zero. -/
theorem zeros_apply (i : S16384x1200.Idx) : val_main_v0 (F := Ideal) i = (0 : EReal) :=
  (val_main_v0_apply (F := Ideal) i).trans Ideal.ofBits_zero_f32

/-- Component 0 of path `p`'s index pair is its batch index, python-style. -/
theorem pair_fst (x1 x2 : (⟨S1048576, .i32⟩ : BufTy).Contents (Elt Ideal)) (p : Fin 1048576) :
    val_main_v13 (F := Ideal) x1 x2 (ix2 p (0 : Fin 2)) = val_main_v5 (F := Ideal) x1 (ix1 p) := by
  have hcat : val_main_v13 (F := Ideal) x1 x2 (ix2 p (0 : Fin 2)) = val_main_v11 (F := Ideal) x1 (ix2 p (0 : Fin 1)) :=
    concatenate_pair_apply_left 1 (val_main_v11 (F := Ideal) x1) (val_main_v12 (F := Ideal) x2)
      concatenates_S1048576x1_S1048576x1_S1048576x2_d1 _ rfl _ (fun b => by
        match b with
        | ⟨0, _⟩ => rfl
        | ⟨1, _⟩ => rfl)
  rw [hcat, val_main_v11_apply]
  exact congrArg _ (funext fun a => match a with | ⟨0, _⟩ => rfl)

/-- Component 1 of path `p`'s index pair is its relation index, python-style. -/
theorem pair_snd (x1 x2 : (⟨S1048576, .i32⟩ : BufTy).Contents (Elt Ideal)) (p : Fin 1048576) :
    val_main_v13 (F := Ideal) x1 x2 (ix2 p (1 : Fin 2)) = val_main_v10 (F := Ideal) x2 (ix1 p) := by
  have hcat : val_main_v13 (F := Ideal) x1 x2 (ix2 p (1 : Fin 2)) = val_main_v12 (F := Ideal) x2 (ix2 p (0 : Fin 1)) :=
    concatenate_pair_apply_right 1 (val_main_v11 (F := Ideal) x1) (val_main_v12 (F := Ideal) x2)
      concatenates_S1048576x1_S1048576x1_S1048576x2_d1 _ rfl rfl _
      (fun b hb => by
        match b with
        | ⟨0, _⟩ => rfl
        | ⟨1, _⟩ => exact absurd rfl hb)
      rfl
  rw [hcat, val_main_v12_apply]
  exact congrArg _ (funext fun a => match a with | ⟨0, _⟩ => rfl)

/-- THE HISTOGRAM AT CELL `(b, k)`: zero plus the probabilities of the paths whose batch index is `b` and whose relation
    index is `k`. -/
theorem histogram_apply (x1 x2 : (⟨S1048576, .i32⟩ : BufTy).Contents (Elt Ideal)) (x3 : (⟨S1048576, .f32⟩ : BufTy).Contents (Elt Ideal))
    (b : Fin 16384) (k : Fin 1200) :
    val_main_v14 (F := Ideal) x1 x2 x3 (ix2 b k)
      = 0 + ∑ p ∈ Finset.univ.filter (fun p : Fin 1048576 =>
          (val_main_v5 (F := Ideal) x1 (ix1 p)).toInt = (b.val : Int) ∧ (val_main_v10 (F := Ideal) x2 (ix1 p)).toInt = (k.val : Int)),
          x3 (ix1 p) := by
  unfold val_main_v14
  rw [scatterAdd_exact, scatter_is_cellScatter, Cert.HostIndex.cellScatter_apply, zeros_apply]
  simp only [pair_fst x1 x2, pair_snd x1 x2]

/-- THE CONTRACTED HISTOGRAM AT `(b, e)`: the sum over the relations of the histogram cell times the embedding entry. -/
theorem contracted_apply (x1 x2 : (⟨S1048576, .i32⟩ : BufTy).Contents (Elt Ideal)) (x3 : (⟨S1048576, .f32⟩ : BufTy).Contents (Elt Ideal))
    (x4 : (⟨S1200x128, .f32⟩ : BufTy).Contents (Elt Ideal)) (b : Fin 16384) (e : Fin 128) :
    val_main_v15 (F := Ideal) x1 x2 x3 x4 (ix2 b e)
      = ∑ k : Fin 1200, (0 + ∑ p ∈ Finset.univ.filter (fun p : Fin 1048576 =>
          (val_main_v5 (F := Ideal) x1 (ix1 p)).toInt = (b.val : Int) ∧ (val_main_v10 (F := Ideal) x2 (ix1 p)).toInt = (k.val : Int)),
          x3 (ix1 p)) * x4 (ix2 k e) := by
  rw [val_main_v15_apply]
  refine Finset.sum_congr rfl fun k _ => ?_
  have hl : lidx_main_v15 (ix2 b e) k = ix2 b k := funext fun a => match a with | ⟨0, _⟩ => rfl | ⟨1, _⟩ => rfl
  have hr : ridx_main_v15 (ix2 b e) k = ix2 k e := funext fun a => match a with | ⟨0, _⟩ => rfl | ⟨1, _⟩ => rfl
  rw [hl, hr, histogram_apply]

end Cert.BridgeRef

end
-- ==== Proof.Regroup.lean ====
/-
  Regrouping a weighted histogram.

  Every path `p` carries a weight `w p` (its probability) and a relation `rel p`; a set of paths is selected
  (those that land in one batch row). Two ways to contract with a column `e` of the relation embeddings:

    * path by path:      `∑ p selected, w p * e (rel p)`;
    * through a histogram: first `H k = ∑ p selected with rel p = k, w p`, then `∑ k, H k * e k`.

  They agree because a sum over the selected paths splits into the sums over the fibres of `rel`, and on the fibre
  over `k` the factor `e (rel p)` is the constant `e k`, which comes out of the inner sum. Taking a factor out of a sum is
  distributivity, which holds on the reals and fails at the infinities of the extended reals; so the law is proved
  over the reals and carried to the extended reals for weights and embeddings that are real numbers.
-/
import Idealize.ShloMosaic.PureOps.Ideal

namespace Cert.Regroup

open Finset

/-- A finite sum of reals, read in the extended reals, is the sum of its terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: contracting the histogram of the selected paths with `e` is the path-by-path sum. -/
theorem real_law {P K : Type*} [Fintype K] [DecidableEq K] (S : Finset P) (rel : P → K) (w : P → ℝ) (e : K → ℝ) :
    ∑ k, (∑ p ∈ S.filter (fun p => rel p = k), w p) * e k = ∑ p ∈ S, w p * e (rel p) := by
  rw [← Finset.sum_fiberwise S rel (fun p => w p * e (rel p))]
  refine Finset.sum_congr rfl fun k _ => ?_
  rw [Finset.sum_mul]
  refine Finset.sum_congr rfl fun p hp => ?_
  rw [(Finset.mem_filter.mp hp).2]

/-- Over the extended reals, for real weights and real embedding entries: the histogram (each cell accumulated onto
    a zero) contracted with `e` is the path-by-path sum over the selected paths. The selection is a predicate `inB`;
    a histogram cell collects the paths that are selected AND have that relation. -/
theorem histogram_contract {P K : Type*} [Fintype P] [Fintype K] [DecidableEq K]
    (inB : P → Prop) [DecidablePred inB] (rel : P → K) (w : P → EReal) (e : K → EReal)
    (hw : ∀ p, ∃ r : ℝ, w p = (r : EReal)) (he : ∀ k, ∃ r : ℝ, e k = (r : EReal)) :
    ∑ k, ((0 : EReal) + ∑ p ∈ univ.filter (fun p => inB p ∧ rel p = k), w p) * e k
      = ∑ p ∈ univ.filter inB, w p * e (rel p) := by
  choose w' hw' using hw
  choose e' he' using he
  obtain rfl : w = fun p => (w' p : EReal) := funext hw'
  obtain rfl : e = fun k => (e' k : EReal) := funext he'
  have hfil : ∀ k, univ.filter (fun p => inB p ∧ rel p = k) = (univ.filter inB).filter (fun p => rel p = k) :=
    fun k => (Finset.filter_filter _ _ _).symm
  simp only [hfil, zero_add, ← coe_sum, ← EReal.coe_mul]
  rw [real_law]

end Cert.Regroup
-- ==== Proof.Bridge.lean ====
/-
  The bridge: the kernel's path-by-path sum is the reference's histogram contracted with the embeddings.

  Fix a batch row `b` and an embedding column `e`. The kernel's array holds
      `0 + ∑ over the paths p whose batch index is b, path_prob p · rel_emb[rel p, e]`,
  the reference's
      `∑ over the relations k, (0 + ∑ over the paths p whose batch index is b and whose relation is k, path_prob p) · rel_emb[k, e]`.
  Both read a path's batch index the same way (python-style, 16384 added to a negative one; a path whose index is still
  out of range contributes to no row on either side). A relation index in `[0, 1200)` is its own python-style reading, is
  untouched by the gather's clamp, and names the histogram's column. With the probabilities and the embedding entries
  real numbers the two sums are equal by regrouping the paths by their relation.
-/
import proofs.«422552_j20873541059102_2_alg».proof.Proof.BridgeKernel
import proofs.«422552_j20873541059102_2_alg».proof.Proof.BridgeRef
import proofs.«422552_j20873541059102_2_alg».proof.Proof.Regroup

noncomputable section

namespace Cert.Bridge

open Idealize.ShloMosaic Idealize.ShloMosaic.ValueIdx
open Cert.KernelIdeal (Glue.pathSum Glue.target Glue.absDiff Glue.wrapRel Glue.wrapBatch)

/-- A non-negative 32-bit index is its own python-style reading: the "add the extent to a negative index" branch is not taken. -/
theorem wrap_of_nonneg (x n : BitVec 32) (h : 0 ≤ x.toInt) :
    Scalar.select (IntOp.cmpi .slt x 0#32) (IntOp.addi x n) x = x := by
  have hs : x.slt 0#32 = false := by simpa [BitVec.slt] using h
  have hc : IntOp.cmpi .slt x 0#32 = 0#1 := by
    unfold IntOp.cmpi
    simp only [hs]
    rfl
  rw [hc, select_zero]

/-- The two programs read a path's batch index python-style by the same operations. -/
theorem batch_same (x1 : (⟨Cert.KernelIdeal.S1048576, .i32⟩ : BufTy).Contents (Elt Ideal)) :
    Cert.ReferenceIdeal.Read.val_main_v5 (F := Ideal) x1 = Cert.KernelIdeal.Glue.wrapBatch (F := Ideal) x1 := rfl

/-- The two programs read a path's relation index python-style by the same operations. -/
theorem rel_same (x2 : (⟨Cert.KernelIdeal.S1048576, .i32⟩ : BufTy).Contents (Elt Ideal)) :
    Cert.ReferenceIdeal.Read.val_main_v10 (F := Ideal) x2 = Cert.KernelIdeal.Glue.wrapRel (F := Ideal) x2 := rfl

/-- A relation index that is non-negative is its own python-style reading. -/
theorem rel_of_nonneg (x2 : (⟨Cert.KernelIdeal.S1048576, .i32⟩ : BufTy).Contents (Elt Ideal)) (i : Cert.KernelIdeal.S1048576.Idx)
    (h : 0 ≤ (x2 i).toInt) : Cert.KernelIdeal.Glue.wrapRel (F := Ideal) x2 i = x2 i := by
  rw [← rel_same, Cert.ReferenceIdeal.Read.val_main_v10_apply, Cert.ReferenceIdeal.Read.val_main_v7_apply,
    Cert.ReferenceIdeal.Read.val_main_v6_apply, Cert.ReferenceIdeal.Read.val_main_c_1_apply]
  exact wrap_of_nonneg _ _ h

/-- The kernel's path-by-path sum and the reference's contracted histogram are one array, for real probabilities and
    embeddings and relation indices in range. -/
theorem pathSum_eq_contracted (x1 x2 : (⟨Cert.KernelIdeal.S1048576, .i32⟩ : BufTy).Contents (Elt Ideal))
    (x3 : (⟨Cert.KernelIdeal.S1048576, .f32⟩ : BufTy).Contents (Elt Ideal))
    (x4 : (⟨Cert.KernelIdeal.S1200x128, .f32⟩ : BufTy).Contents (Elt Ideal))
    (h3 : ∀ i, ∃ r : ℝ, x3 i = (r : EReal)) (h4 : ∀ i, ∃ r : ℝ, x4 i = (r : EReal))
    (h2 : ∀ i, 0 ≤ (x2 i).toInt ∧ (x2 i).toInt < 1200) :
    Cert.KernelIdeal.Glue.pathSum (F := Ideal) x1 x2 x3 x4 = Cert.ReferenceIdeal.Read.val_main_v15 (F := Ideal) x1 x2 x3 x4 := by
  funext i
  obtain ⟨b, e, rfl⟩ : ∃ (b : Fin 16384) (e : Fin 128), i = ix2 b e := ⟨i 0, i 1, eq_ix2 i⟩
  rw [Cert.BridgeKernel.pathSum_apply, Cert.BridgeRef.contracted_apply, batch_same, rel_same, zero_add]
  -- a path's relation, as a column of the histogram
  have hlt : ∀ p : Fin 1048576, (x2 (ix1 p)).toInt.toNat < 1200 := fun p => by have := h2 (ix1 p); omega
  -- the kernel's gathered row is the row of the path's relation: neither the wrap nor the clamp moves an index in range
  have hrow : ∀ p : Fin 1048576,
      min (Cert.KernelIdeal.Glue.wrapRel (F := Ideal) x2 (ix1 p)).toInt.toNat (1200 - 1) = (x2 (ix1 p)).toInt.toNat := fun p => by
    rw [rel_of_nonneg x2 (ix1 p) (h2 (ix1 p)).1]; have := hlt p; omega
  -- the histogram's column test is "the path's relation is k"
  have hcol : ∀ (p : Fin 1048576) (k : Fin 1200),
      ((Cert.KernelIdeal.Glue.wrapRel (F := Ideal) x2 (ix1 p)).toInt = (k.val : Int))
        ↔ ((⟨(x2 (ix1 p)).toInt.toNat, hlt p⟩ : Fin 1200) = k) := fun p k => by
    rw [rel_of_nonneg x2 (ix1 p) (h2 (ix1 p)).1, Fin.ext_iff]
    have := (h2 (ix1 p)).1
    constructor <;> intro hh <;> simp only at hh ⊢ <;> omega
  have key := Cert.Regroup.histogram_contract
    (inB := fun p : Fin 1048576 => (Cert.KernelIdeal.Glue.wrapBatch (F := Ideal) x1 (ix1 p)).toInt = (b.val : Int))
    (rel := fun p : Fin 1048576 => (⟨(x2 (ix1 p)).toInt.toNat, hlt p⟩ : Fin 1200))
    (w := fun p : Fin 1048576 => x3 (ix1 p)) (e := fun k : Fin 1200 => x4 (ix2 k e))
    (fun p => h3 (ix1 p)) (fun k => h4 (ix2 k e))
  refine Eq.trans ?_ (key.symm.trans ?_)
  · exact Finset.sum_congr rfl fun p _ => congrArg (fun r => x3 (ix1 p) * x4 (ix2 r e)) (Fin.ext (hrow p))
  · refine Finset.sum_congr rfl fun k _ => ?_
    refine congrArg (fun s : EReal => (0 + s) * x4 (ix2 k e)) ?_
    exact Finset.sum_congr (Finset.filter_congr fun p _ => and_congr Iff.rfl (hcol p k).symm) fun _ _ => rfl

/-- The target rows are the same gather on both sides. -/
theorem target_eq (x0 : (⟨Cert.KernelIdeal.S16384, .i32⟩ : BufTy).Contents (Elt Ideal))
    (x4 : (⟨Cert.KernelIdeal.S1200x128, .f32⟩ : BufTy).Contents (Elt Ideal)) :
    Cert.KernelIdeal.Glue.target (F := Ideal) x0 x4 = Cert.ReferenceIdeal.Read.val_main_v22 (F := Ideal) x0 x4 := rfl

/-- Over the extended reals the kernel's and the host's absolute value are one function, so the distance of two arrays at
    an entry is the host's `|a − b|` of the entries. -/
theorem absDiff_apply (P R : FVec Ideal Cert.KernelIdeal.S16384x128 .f32) (i : Cert.KernelIdeal.S16384x128.Idx) :
    Cert.KernelIdeal.Glue.absDiff (F := Ideal) P R i = FloatOps.hostAbsf (FloatOps.subf (P i) (R i)) := rfl

/-- So the kernel's distance array is the reference's result. -/
theorem result_eq (x0 : (⟨Cert.KernelIdeal.S16384, .i32⟩ : BufTy).Contents (Elt Ideal))
    (x1 x2 : (⟨Cert.KernelIdeal.S1048576, .i32⟩ : BufTy).Contents (Elt Ideal))
    (x3 : (⟨Cert.KernelIdeal.S1048576, .f32⟩ : BufTy).Contents (Elt Ideal))
    (x4 : (⟨Cert.KernelIdeal.S1200x128, .f32⟩ : BufTy).Contents (Elt Ideal))
    (h3 : ∀ i, ∃ r : ℝ, x3 i = (r : EReal)) (h4 : ∀ i, ∃ r : ℝ, x4 i = (r : EReal))
    (h2 : ∀ i, 0 ≤ (x2 i).toInt ∧ (x2 i).toInt < 1200) :
    Cert.KernelIdeal.Glue.absDiff (F := Ideal) (Cert.KernelIdeal.Glue.pathSum (F := Ideal) x1 x2 x3 x4) (Cert.KernelIdeal.Glue.target (F := Ideal) x0 x4)
      = Cert.ReferenceIdeal.Read.val_main_v24 (F := Ideal) x0 x1 x2 x3 x4 := by
  funext i
  rw [Cert.ReferenceIdeal.Read.val_main_v24_apply, Cert.ReferenceIdeal.Read.val_main_v23_apply,
    ← pathSum_eq_contracted x1 x2 x3 x4 h3 h4 h2, ← target_eq x0 x4]
  exact absDiff_apply _ _ i

end Cert.Bridge

end
-- ==== Proof.lean ====
/-
  A path-ranking distance, two ways.

  Each of 1,048,576 path entries carries a batch row `path_batch p`, a relation `path_rel p` and a probability
  `path_prob p`; `rel_emb` holds one 128-entry embedding row per relation, 1200 of them, and `r` names a target relation
  for each of the 16,384 batch rows. Both programs return `|P − rel_emb[r]|`, entry by entry, and differ in how they
  form `P`:

    * the reference accumulates the histogram `W[b, k] = ∑ over the paths with batch row b and relation k, path_prob p`
      and contracts it, `P[b, :] = ∑ over k, W[b, k] · rel_emb[k, :]`;
    * the kernel adds, path by path, the row `path_prob p · rel_emb[path_rel p, :]` onto row `path_batch p` of a zero array,
      and a Pallas region over four blocks of 4096 rows then takes the distance to the target rows.

  The two `P` agree by regrouping the paths of a batch row by their relation: on the paths with relation `k` the factor
  `rel_emb[k, e]` is constant and comes out of the sum. That is distributivity, so it uses that the probabilities and the
  embedding entries are real numbers (the precondition's finiteness). It also uses that every relation index lies in
  `[0, 1200)` (the precondition's range conjunct): outside that range the reference's scatter drops the path while the
  kernel's gather clamps the index to a row that exists, and the two programs differ. A batch index needs no condition:
  both programs read it the same way and both drop a path whose row is out of range. The target rows are the same
  gather in both programs.

  The frames of the two kernel programs and the value of the kernel's region are over the modules the program's text
  is read back into; the reference's frame and value are its host operations' run.
-/
import proofs.«422552_j20873541059102_2_alg».proof.Defs
import proofs.«422552_j20873541059102_2_alg».proof.Proof.Gen.Kernel
import proofs.«422552_j20873541059102_2_alg».proof.Proof.Gen.Kernel.Skeleton
import proofs.«422552_j20873541059102_2_alg».proof.Proof.Gen.Kernel.Launch
import proofs.«422552_j20873541059102_2_alg».proof.Proof.Gen.Kernel.Points
import proofs.«422552_j20873541059102_2_alg».proof.Proof.Gen.Kernel.Frame
import proofs.«422552_j20873541059102_2_alg».proof.Proof.Gen.KernelIdeal
import proofs.«422552_j20873541059102_2_alg».proof.Proof.Gen.KernelIdeal.Skeleton
import proofs.«422552_j20873541059102_2_alg».proof.Proof.Gen.KernelIdeal.Launch
import proofs.«422552_j20873541059102_2_alg».proof.Proof.Gen.KernelIdeal.Points
import proofs.«422552_j20873541059102_2_alg».proof.Proof.Gen.KernelIdeal.Frame
import proofs.«422552_j20873541059102_2_alg».proof.Proof.Gen.ReferenceIdeal
import proofs.«422552_j20873541059102_2_alg».proof.Proof.Gen.Pre_finite_inputs
import proofs.«422552_j20873541059102_2_alg».proof.Proof.Gen.KernelIdeal.Value
import proofs.«422552_j20873541059102_2_alg».proof.Proof.Gen.ReferenceIdeal.Run
import proofs.«422552_j20873541059102_2_alg».proof.Proof.Gen.ReferenceIdeal.Read
import proofs.«422552_j20873541059102_2_alg».proof.Proof.KernelArray
import proofs.«422552_j20873541059102_2_alg».proof.Proof.PreDecode
import proofs.«422552_j20873541059102_2_alg».proof.Proof.Bridge
import Idealize.ShloMosaic.Adequacy
import Idealize.ShloMosaic.Init

noncomputable section

namespace Cert.Proof

open Idealize.ShloMosaic Idealize.ShloMosaic.TcCoe Idealize.SL.Sem

/-- The kernel's program runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run ends with the arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- Over the extended reals, from memories that agree on the arguments, the kernel's result array ends at
    `|pathSum − target|` and the reference's at `|contracted histogram − target|`: one array, by the regrouping law, for
    the real probabilities and embeddings and the in-range relation indices the precondition gives. -/
theorem algebraic : Cert.algebraic_KernelIdeal_ReferenceIdeal := by
  intro m ρ m' ρ' hpre hagree
  refine ⟨fun c => Cert.KernelIdeal.Array.result m c, Cert.KernelIdeal.Array.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨h3, h4, h2⟩ := Cert.PreDecode.decode _ _ _ _ _ (hpre c)
  rw [Cert.ReferenceIdeal.Read.val_main_v24_eq, a0, a1, a2, a3, a4]
  exact (Cert.Bridge.result_eq _ _ _ _ _ h3 h4 h2).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
